-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x64 : Shape := ⟨3, ![8, 32, 64]⟩
abbrev S_ : Shape := ⟨0, ![]⟩

class Facts : Prop where
  bcast_S_S8x32x64 : S_.BroadcastsInDim S8x32x64 (![] : Fin 0 → Fin S8x32x64.rank)
  reducesTo_S8x32x64_S_d0_1_2 : S8x32x64.ReducesTo [0, 1, 2] S_
  h_S_ : 0 < S_.numel

variable [Facts]

def fn {F : FTy → Type} [FloatOps F] (main_arg0 : FVec F S8x32x64 .f32) : IVec S_ 1 :=
  let main_v0 : FVec F S8x32x64 .f32 := Host.absf main_arg0
  let main_cst : FVec F S_ .f32 := constant S_ .f32 0x7F800000#32
  let main_v1 : FVec F S8x32x64 .f32 := broadcastInDim S8x32x64 ![] bcast_S_S8x32x64 main_cst
  let main_v2 : IVec S8x32x64 1 := cmpf .olt main_v0 main_v1
  let main_c : IVec S_ 1 := constantI S_ 1 1#1
  let main_v3 : IVec S_ 1 := (fun x v => Host.reduce IntOp.andi x v reducesTo_S8x32x64_S_d0_1_2 h_S_) main_v2 main_c
  main_v3
-- ==== Kernel.lean ====
abbrev S8x32x64 : Shape := ⟨3, ![8, 32, 64]⟩
abbrev S8x32x266304 : Shape := ⟨3, ![8, 32, 266304]⟩
abbrev S1x8x64 : Shape := ⟨3, ![1, 8, 64]⟩
abbrev S1x8x266304 : Shape := ⟨3, ![1, 8, 266304]⟩
abbrev S8x64 : Shape := ⟨2, ![8, 64]⟩
abbrev S8x64x1 : Shape := ⟨3, ![8, 64, 1]⟩
abbrev S8x1x64 : Shape := ⟨3, ![8, 1, 64]⟩
abbrev S8x64x64 : Shape := ⟨3, ![8, 64, 64]⟩
abbrev S8x4096 : Shape := ⟨2, ![8, 4096]⟩
abbrev S1x8x4096 : Shape := ⟨3, ![1, 8, 4096]⟩
abbrev S8x512 : Shape := ⟨2, ![8, 512]⟩
abbrev S8x512x1 : Shape := ⟨3, ![8, 512, 1]⟩
abbrev S8x512x64 : Shape := ⟨3, ![8, 512, 64]⟩
abbrev S8x32768 : Shape := ⟨2, ![8, 32768]⟩
abbrev S1x8x32768 : Shape := ⟨3, ![1, 8, 32768]⟩

abbrev nBuf : Space → Nat
  | .hbm => 2
  | .vmem => 4
  | .smem => 0
  | _ => 0

abbrev bufTy : (tb : Table) → Fin (tcTables nBuf tb) → BufTy
  | .hbm, ⟨0, _⟩ => ⟨S8x32x64, .f32⟩
  | .hbm, ⟨1, _⟩ => ⟨S8x32x266304, .f32⟩
  | .local _ .vmem, ⟨0, _⟩ => ⟨S1x8x64, .f32⟩
  | .local _ .vmem, ⟨1, _⟩ => ⟨S1x8x64, .f32⟩
  | .local _ .vmem, ⟨2, _⟩ => ⟨S1x8x266304, .f32⟩
  | .local _ .vmem, ⟨3, _⟩ => ⟨S1x8x266304, .f32⟩
  | _, _ => ⟨S8x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x266304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x8x64_S1x8x64_0_0_0 : ∀ a, (![0, 0, 0] : Fin 3 → Nat) a + S1x8x64.size a ≤ S1x8x64.size a
  h_S1x8x64 : 0 < S1x8x64.numel
  shapeCasts_S1x8x64_S8x64 : S1x8x64.ShapeCasts S8x64
  inb_S1x8x266304_S1x8x64_0_0_0 : ∀ a, (![0, 0, 0] : Fin 3 → Nat) a + S1x8x64.size a ≤ S1x8x266304.size a
  shapeCasts_S8x64_S1x8x64 : S8x64.ShapeCasts S1x8x64
  shapeCasts_S8x64_S8x64x1 : S8x64.ShapeCasts S8x64x1
  shapeCasts_S8x64_S8x1x64 : S8x64.ShapeCasts S8x1x64
  broadcasts_S8x64x1_S8x64x64 : S8x64x1.Broadcasts S8x64x64
  broadcasts_S8x1x64_S8x64x64 : S8x1x64.Broadcasts S8x64x64
  shapeCasts_S8x64x64_S8x4096 : S8x64x64.ShapeCasts S8x4096
  inb_S1x8x266304_S1x8x4096_0_0_64 : ∀ a, (![0, 0, 64] : Fin 3 → Nat) a + S1x8x4096.size a ≤ S1x8x266304.size a
  h_S1x8x4096 : 0 < S1x8x4096.numel
  shapeCasts_S1x8x4096_S8x4096 : S1x8x4096.ShapeCasts S8x4096
  shapeCasts_S8x4096_S1x8x4096 : S8x4096.ShapeCasts S1x8x4096
  slices_S8x4096_o0_0_S8x512 : S8x4096.Slices ![0, 0] S8x512
  shapeCasts_S8x512_S8x512x1 : S8x512.ShapeCasts S8x512x1
  broadcasts_S8x512x1_S8x512x64 : S8x512x1.Broadcasts S8x512x64
  broadcasts_S8x1x64_S8x512x64 : S8x1x64.Broadcasts S8x512x64
  shapeCasts_S8x512x64_S8x32768 : S8x512x64.ShapeCasts S8x32768
  inb_S1x8x266304_S1x8x32768_0_0_4160 : ∀ a, (![0, 0, 4160] : Fin 3 → Nat) a + S1x8x32768.size a ≤ S1x8x266304.size a
  h_S1x8x32768 : 0 < S1x8x32768.numel
  shapeCasts_S1x8x32768_S8x32768 : S1x8x32768.ShapeCasts S8x32768
  shapeCasts_S8x32768_S1x8x32768 : S8x32768.ShapeCasts S1x8x32768
  slices_S8x4096_o0_512_S8x512 : S8x4096.Slices ![0, 512] S8x512
  inb_S1x8x266304_S1x8x32768_0_0_36928 : ∀ a, (![0, 0, 36928] : Fin 3 → Nat) a + S1x8x32768.size a ≤ S1x8x266304.size a
  slices_S8x4096_o0_1024_S8x512 : S8x4096.Slices ![0, 1024] S8x512
  inb_S1x8x266304_S1x8x32768_0_0_69696 : ∀ a, (![0, 0, 69696] : Fin 3 → Nat) a + S1x8x32768.size a ≤ S1x8x266304.size a
  slices_S8x4096_o0_1536_S8x512 : S8x4096.Slices ![0, 1536] S8x512
  inb_S1x8x266304_S1x8x32768_0_0_102464 : ∀ a, (![0, 0, 102464] : Fin 3 → Nat) a + S1x8x32768.size a ≤ S1x8x266304.size a
  slices_S8x4096_o0_2048_S8x512 : S8x4096.Slices ![0, 2048] S8x512
  inb_S1x8x266304_S1x8x32768_0_0_135232 : ∀ a, (![0, 0, 135232] : Fin 3 → Nat) a + S1x8x32768.size a ≤ S1x8x266304.size a
  slices_S8x4096_o0_2560_S8x512 : S8x4096.Slices ![0, 2560] S8x512
  inb_S1x8x266304_S1x8x32768_0_0_168000 : ∀ a, (![0, 0, 168000] : Fin 3 → Nat) a + S1x8x32768.size a ≤ S1x8x266304.size a
  slices_S8x4096_o0_3072_S8x512 : S8x4096.Slices ![0, 3072] S8x512
  inb_S1x8x266304_S1x8x32768_0_0_200768 : ∀ a, (![0, 0, 200768] : Fin 3 → Nat) a + S1x8x32768.size a ≤ S1x8x266304.size a
  slices_S8x4096_o0_3584_S8x512 : S8x4096.Slices ![0, 3584] S8x512
  inb_S1x8x266304_S1x8x32768_0_0_233536 : ∀ a, (![0, 0, 233536] : Fin 3 → Nat) a + S1x8x32768.size a ≤ S1x8x266304.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x64.size a ≤ S8x32x64.size a
  hwx0_0 : ∀ i : grid0.Coords, EltTy.bits .f32 = 32 ∨ (Rect.block (s := S8x32x64) S1x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x266304.size a ≤ S8x32x266304.size a
  hwx0_1 : ∀ i : grid0.Coords, EltTy.bits .f32 = 32 ∨ (Rect.block (s := S8x32x266304) S1x8x266304.size (cc0_transform_1 i) (hinb0_1 i)).WholeWords (EltTy.packing .f32)

variable [Facts₀]

abbrev win0_0 : Pipeline.Window sig grid0 :=
  Pipeline.Window.ofSpec (Memref.whole main_arg0) S1x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8x266304.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x32x64 : Shape := ⟨3, ![8, 32, 64]⟩
abbrev S8x32x64x1 : Shape := ⟨4, ![8, 32, 64, 1]⟩
abbrev S8x32x1x64 : Shape := ⟨4, ![8, 32, 1, 64]⟩
abbrev S8x32x64x64 : Shape := ⟨4, ![8, 32, 64, 64]⟩
abbrev S8x32x4096 : Shape := ⟨3, ![8, 32, 4096]⟩
abbrev S8x32x4096x1 : Shape := ⟨4, ![8, 32, 4096, 1]⟩
abbrev S8x32x4096x64 : Shape := ⟨4, ![8, 32, 4096, 64]⟩
abbrev S8x32x262144 : Shape := ⟨3, ![8, 32, 262144]⟩
abbrev S8x32x266304 : Shape := ⟨3, ![8, 32, 266304]⟩

abbrev nBuf : Space → Nat
  | .hbm => 15
  | .vmem => 0
  | .smem => 0
  | _ => 0

abbrev bufTy : (tb : Table) → Fin (tcTables nBuf tb) → BufTy
  | .hbm, ⟨0, _⟩ => ⟨S8x32x64, .f32⟩
  | .hbm, ⟨1, _⟩ => ⟨S8x32x64, .f32⟩
  | .hbm, ⟨2, _⟩ => ⟨S8x32x64x1, .f32⟩
  | .hbm, ⟨3, _⟩ => ⟨S8x32x1x64, .f32⟩
  | .hbm, ⟨4, _⟩ => ⟨S8x32x64x64, .f32⟩
  | .hbm, ⟨5, _⟩ => ⟨S8x32x64x64, .f32⟩
  | .hbm, ⟨6, _⟩ => ⟨S8x32x64x64, .f32⟩
  | .hbm, ⟨7, _⟩ => ⟨S8x32x4096, .f32⟩
  | .hbm, ⟨8, _⟩ => ⟨S8x32x4096x1, .f32⟩
  | .hbm, ⟨9, _⟩ => ⟨S8x32x1x64, .f32⟩
  | .hbm, ⟨10, _⟩ => ⟨S8x32x4096x64, .f32⟩
  | .hbm, ⟨11, _⟩ => ⟨S8x32x4096x64, .f32⟩
  | .hbm, ⟨12, _⟩ => ⟨S8x32x4096x64, .f32⟩
  | .hbm, ⟨13, _⟩ => ⟨S8x32x262144, .f32⟩
  | .hbm, ⟨14, _⟩ => ⟨S8x32x266304, .f32⟩
  | _, _ => ⟨S8x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩

abbrev nD : Nat := 1
abbrev τ : Topo := Topo.v7x

variable {F : FTy → Type} [FloatOps F]

class Facts₀ : Prop where
  bcast_S8x32x64_S8x32x64x1_0_1_2 : S8x32x64.BroadcastsInDim S8x32x64x1 (![0, 1, 2] : Fin 3 → Fin S8x32x64x1.rank)
  bcast_S8x32x64_S8x32x1x64_0_1_3 : S8x32x64.BroadcastsInDim S8x32x1x64 (![0, 1, 3] : Fin 3 → Fin S8x32x1x64.rank)
  bcast_S8x32x64x1_S8x32x64x64_0_1_2_3 : S8x32x64x1.BroadcastsInDim S8x32x64x64 (![0, 1, 2, 3] : Fin 4 → Fin S8x32x64x64.rank)
  bcast_S8x32x1x64_S8x32x64x64_0_1_2_3 : S8x32x1x64.BroadcastsInDim S8x32x64x64 (![0, 1, 2, 3] : Fin 4 → Fin S8x32x64x64.rank)
  shapeCasts_S8x32x64x64_S8x32x4096 : S8x32x64x64.ShapeCasts S8x32x4096
  bcast_S8x32x4096_S8x32x4096x1_0_1_2 : S8x32x4096.BroadcastsInDim S8x32x4096x1 (![0, 1, 2] : Fin 3 → Fin S8x32x4096x1.rank)
  bcast_S8x32x4096x1_S8x32x4096x64_0_1_2_3 : S8x32x4096x1.BroadcastsInDim S8x32x4096x64 (![0, 1, 2, 3] : Fin 4 → Fin S8x32x4096x64.rank)
  bcast_S8x32x1x64_S8x32x4096x64_0_1_2_3 : S8x32x1x64.BroadcastsInDim S8x32x4096x64 (![0, 1, 2, 3] : Fin 4 → Fin S8x32x4096x64.rank)
  shapeCasts_S8x32x4096x64_S8x32x262144 : S8x32x4096x64.ShapeCasts S8x32x262144
  concatenates_S8x32x64_S8x32x4096_S8x32x262144_S8x32x266304_d2 : Shape.Concatenates [S8x32x64, S8x32x4096, S8x32x262144] S8x32x266304 2

variable [Facts₀]

class Facts : Prop extends Facts₀ where

variable [Facts]
-- ==== Proof.BlockCover.lean ====
/-
  The ten stores of the kernel body cover its output block.

  The block is `[1, 8, 266304]`; every store writes all eight rows of a range of lanes: `[0, 64)`, `[64, 4160)`,
  and eight ranges of 32768 lanes from 4160 on, which end at 4160 + 8·32768 = 266304. The ranges follow one another
  without a gap, so every index of the block lies in the rectangle of the store whose range holds its lane; which
  store that is is read off the lane by comparing it with the ranges' first lanes. The statement is about any ten
  pieces at these rectangles, whatever they store and in whatever family of values.
-/
import Idealize.ShloMosaic.Lib.Pipeline.Value

namespace Cert.BlockCover

open Idealize.ShloMosaic

/-- The output block's shape. -/
abbrev Blk : Shape := ⟨3, ![1, 8, 266304]⟩

/-- An index whose lane is in `[off, off + n)` lies in the rectangle of all rows of those lanes. -/
theorem mem_store {off n : ℕ} {inb : ∀ a, (![0, 0, off] : Fin 3 → ℕ) a + (![1, 8, n] : Fin 3 → ℕ) a ≤ Blk.size a}
    (y : Blk.Idx) (h : off ≤ (y 2).val ∧ (y 2).val < off + n) :
    y ∈ (Rect.unit (s := Blk) ![0, 0, off] ![1, 8, n] inb).set := by
  rw [Rect.mem_set_unit]
  intro a
  match a with
  | ⟨0, _⟩ => have h0 : (y 0).val < 1 := (y 0).isLt; show 0 ≤ (y 0).val ∧ (y 0).val < 0 + 1; omega
  | ⟨1, _⟩ => have h1 : (y 1).val < 8 := (y 1).isLt; show 0 ≤ (y 1).val ∧ (y 1).val < 0 + 8; omega
  | ⟨2, _⟩ => exact h

/-- Ten pieces at the body's ten rectangles (the last store first) cover the block. -/
theorem cover_ten {Val : EltTy → Type} {e : EltTy}
    {i9 : ∀ a, (![0, 0, 233536] : Fin 3 → ℕ) a + (![1, 8, 32768] : Fin 3 → ℕ) a ≤ Blk.size a}
    (w9 : (Rect.unit (s := Blk) ![0, 0, 233536] ![1, 8, 32768] i9).shape.Idx → Val e)
    {i8 : ∀ a, (![0, 0, 200768] : Fin 3 → ℕ) a + (![1, 8, 32768] : Fin 3 → ℕ) a ≤ Blk.size a}
    (w8 : (Rect.unit (s := Blk) ![0, 0, 200768] ![1, 8, 32768] i8).shape.Idx → Val e)
    {i7 : ∀ a, (![0, 0, 168000] : Fin 3 → ℕ) a + (![1, 8, 32768] : Fin 3 → ℕ) a ≤ Blk.size a}
    (w7 : (Rect.unit (s := Blk) ![0, 0, 168000] ![1, 8, 32768] i7).shape.Idx → Val e)
    {i6 : ∀ a, (![0, 0, 135232] : Fin 3 → ℕ) a + (![1, 8, 32768] : Fin 3 → ℕ) a ≤ Blk.size a}
    (w6 : (Rect.unit (s := Blk) ![0, 0, 135232] ![1, 8, 32768] i6).shape.Idx → Val e)
    {i5 : ∀ a, (![0, 0, 102464] : Fin 3 → ℕ) a + (![1, 8, 32768] : Fin 3 → ℕ) a ≤ Blk.size a}
    (w5 : (Rect.unit (s := Blk) ![0, 0, 102464] ![1, 8, 32768] i5).shape.Idx → Val e)
    {i4 : ∀ a, (![0, 0, 69696] : Fin 3 → ℕ) a + (![1, 8, 32768] : Fin 3 → ℕ) a ≤ Blk.size a}
    (w4 : (Rect.unit (s := Blk) ![0, 0, 69696] ![1, 8, 32768] i4).shape.Idx → Val e)
    {i3 : ∀ a, (![0, 0, 36928] : Fin 3 → ℕ) a + (![1, 8, 32768] : Fin 3 → ℕ) a ≤ Blk.size a}
    (w3 : (Rect.unit (s := Blk) ![0, 0, 36928] ![1, 8, 32768] i3).shape.Idx → Val e)
    {i2 : ∀ a, (![0, 0, 4160] : Fin 3 → ℕ) a + (![1, 8, 32768] : Fin 3 → ℕ) a ≤ Blk.size a}
    (w2 : (Rect.unit (s := Blk) ![0, 0, 4160] ![1, 8, 32768] i2).shape.Idx → Val e)
    {i1 : ∀ a, (![0, 0, 64] : Fin 3 → ℕ) a + (![1, 8, 4096] : Fin 3 → ℕ) a ≤ Blk.size a}
    (w1 : (Rect.unit (s := Blk) ![0, 0, 64] ![1, 8, 4096] i1).shape.Idx → Val e)
    {i0 : ∀ a, (![0, 0, 0] : Fin 3 → ℕ) a + (![1, 8, 64] : Fin 3 → ℕ) a ≤ Blk.size a}
    (w0 : (Rect.unit (s := Blk) ![0, 0, 0] ![1, 8, 64] i0).shape.Idx → Val e)
    (y : Blk.Idx) :
    ∃ pc ∈ ([⟨Rect.unit ![0, 0, 233536] ![1, 8, 32768] i9, w9⟩,
        ⟨Rect.unit ![0, 0, 200768] ![1, 8, 32768] i8, w8⟩,
        ⟨Rect.unit ![0, 0, 168000] ![1, 8, 32768] i7, w7⟩,
        ⟨Rect.unit ![0, 0, 135232] ![1, 8, 32768] i6, w6⟩,
        ⟨Rect.unit ![0, 0, 102464] ![1, 8, 32768] i5, w5⟩,
        ⟨Rect.unit ![0, 0, 69696] ![1, 8, 32768] i4, w4⟩,
        ⟨Rect.unit ![0, 0, 36928] ![1, 8, 32768] i3, w3⟩,
        ⟨Rect.unit ![0, 0, 4160] ![1, 8, 32768] i2, w2⟩,
        ⟨Rect.unit ![0, 0, 64] ![1, 8, 4096] i1, w1⟩,
        ⟨Rect.unit ![0, 0, 0] ![1, 8, 64] i0, w0⟩] : List (View.Piece Val Blk e)), y ∈ pc.1.set := by
  have h2 : (y 2).val < 266304 := (y 2).isLt
  by_cases c0 : 233536 ≤ (y 2).val
  · exact ⟨_, List.mem_cons_self, mem_store (inb := i9) y ⟨c0, by omega⟩⟩
  by_cases c1 : 200768 ≤ (y 2).val
  · exact ⟨_, List.mem_cons_of_mem _ (List.mem_cons_self), mem_store (inb := i8) y ⟨c1, by omega⟩⟩
  by_cases c2 : 168000 ≤ (y 2).val
  · exact ⟨_, List.mem_cons_of_mem _ (List.mem_cons_of_mem _ (List.mem_cons_self)), mem_store (inb := i7) y ⟨c2, by omega⟩⟩
  by_cases c3 : 135232 ≤ (y 2).val
  · exact ⟨_, List.mem_cons_of_mem _ (List.mem_cons_of_mem _ (List.mem_cons_of_mem _ (List.mem_cons_self))), mem_store (inb := i6) y ⟨c3, by omega⟩⟩
  by_cases c4 : 102464 ≤ (y 2).val
  · exact ⟨_, List.mem_cons_of_mem _ (List.mem_cons_of_mem _ (List.mem_cons_of_mem _ (List.mem_cons_of_mem _ (List.mem_cons_self)))), mem_store (inb := i5) y ⟨c4, by omega⟩⟩
  by_cases c5 : 69696 ≤ (y 2).val
  · exact ⟨_, List.mem_cons_of_mem _ (List.mem_cons_of_mem _ (List.mem_cons_of_mem _ (List.mem_cons_of_mem _ (List.mem_cons_of_mem _ (List.mem_cons_self))))), mem_store (inb := i4) y ⟨c5, by omega⟩⟩
  by_cases c6 : 36928 ≤ (y 2).val
  · exact ⟨_, List.mem_cons_of_mem _ (List.mem_cons_of_mem _ (List.mem_cons_of_mem _ (List.mem_cons_of_mem _ (List.mem_cons_of_mem _ (List.mem_cons_of_mem _ (List.mem_cons_self)))))), mem_store (inb := i3) y ⟨c6, by omega⟩⟩
  by_cases c7 : 4160 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_store (inb := i2) y ⟨c7, by omega⟩⟩
  by_cases c8 : 64 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_store (inb := i1) y ⟨c8, by omega⟩⟩
  exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_store (inb := i0) y ⟨Nat.zero_le _, by omega⟩⟩

end Cert.BlockCover
-- ==== Proof.Signature.lean ====
/-
  Signature features of one vector through level three.

  For a vector `v` of 64 entries the feature row has 64 + 64² + 64³ = 266304 positions: position `d < 64` holds
  `v d`; position `64 + (i·64 + j)` holds `v i · v j`; position `4160 + ((i·64 + j)·64 + l)` holds
  `(v i · v j) · v l` — each level is the level before it multiplied, entry by entry, by `v` and laid out row-major.
  Both programs of this certificate compute this row for `v = −x[b, s, ·]`, for every `(b, s)`; this module states
  that function once, with the position read back into coordinates by division and remainder, so that either
  program's arrangement of the products is identified with it by arithmetic on the position alone.
  Multiplication on the extended reals is grouped the same way on both sides, so no law beyond the definitions is
  needed and no entry has to be finite.
-/
import Idealize.ShloMosaic.PureOps.Ideal
import Idealize.ShloMosaic.Lib.ValueIdx

noncomputable section

namespace Cert.Signature

open Idealize.ShloMosaic Idealize.ShloMosaic.ValueIdx

/-- Entry `n mod 64` of a 64-vector: a position's remainder names the last factor's coordinate, and a quotient
    that is already below 64 names itself. -/
def lane (n : ℕ) : Fin 64 := ⟨n % 64, Nat.mod_lt _ (by norm_num)⟩

/-- A coordinate whose value is `n mod 64` is `lane n`. -/
theorem eq_lane {k : Fin 64} {n : ℕ} (h : k.val = n % 64) : k = lane n := Fin.ext h

/-- Two numbers with the same remainder name the same entry. -/
theorem lane_congr {n n' : ℕ} (h : n % 64 = n' % 64) : lane n = lane n' := Fin.ext h

/-- The feature row of `v` at position `j`: level one below 64, level two below 64 + 64², level three above. -/
def sig3 (v : Fin 64 → EReal) (j : ℕ) : EReal :=
  if j < 64 then v (lane j)
  else if j < 4160 then v (lane ((j - 64) / 64)) * v (lane (j - 64))
  else v (lane ((j - 4160) / 4096)) * v (lane ((j - 4160) / 64)) * v (lane (j - 4160))

/-- Level one: the vector itself. -/
theorem sig3_one (v : Fin 64 → EReal) (d : ℕ) (hd : d < 64) : sig3 v d = v (lane d) := by
  unfold sig3; rw [if_pos hd]

/-- Level two, at offset `q < 64²` into it: the product of entries `q / 64` and `q mod 64`. -/
theorem sig3_two (v : Fin 64 → EReal) (q : ℕ) (hq : q < 4096) :
    sig3 v (64 + q) = v (lane (q / 64)) * v (lane q) := by
  unfold sig3
  rw [if_neg (by omega), if_pos (by omega), show 64 + q - 64 = q by omega]

/-- Level three, at offset `p` into it: the level-two entry `p / 64` times entry `p mod 64`. -/
theorem sig3_three (v : Fin 64 → EReal) (p : ℕ) :
    sig3 v (4160 + p) = v (lane (p / 4096)) * v (lane (p / 64)) * v (lane p) := by
  unfold sig3
  rw [if_neg (by omega), if_neg (by omega), show 4160 + p - 4160 = p by omega]

/-- Level two at a position `64 ≤ j < 4160`, its offset written `j − 64`. -/
theorem sig3_two_of_le (v : Fin 64 → EReal) (j : ℕ) (h1 : 64 ≤ j) (h2 : j < 4160) :
    sig3 v j = v (lane ((j - 64) / 64)) * v (lane (j - 64)) := by
  unfold sig3
  rw [if_neg (by omega), if_pos h2]

/-- Level three at a position `4160 ≤ j`, its offset written `j − 4160`. -/
theorem sig3_three_of_le (v : Fin 64 → EReal) (j : ℕ) (h : 4160 ≤ j) :
    sig3 v j = v (lane ((j - 4160) / 4096)) * v (lane ((j - 4160) / 64)) * v (lane (j - 4160)) := by
  unfold sig3
  rw [if_neg (by omega), if_neg (by omega)]

/-- The feature array of a three-axis array `x` with 64 entries on its last axis: row `(b, s)` is the feature row
    of `−x[b, s, ·]`. Generic in the two leading extents, so the same function describes the whole array and any
    block of rows of it. -/
def features {n0 n1 : ℕ} (x : (⟨3, ![n0, n1, 64]⟩ : Shape).Idx → EReal) :
    (⟨3, ![n0, n1, 266304]⟩ : Shape).Idx → EReal :=
  fun i => sig3 (fun d => -(x (ix3 (i 0) (i 1) d))) (i 2).val

/-- The feature array at an index given by coordinates. -/
theorem features_ix3 {n0 n1 : ℕ} (x : (⟨3, ![n0, n1, 64]⟩ : Shape).Idx → EReal) (b : Fin n0) (s : Fin n1) (j : Fin 266304) :
    features x (ix3 b s j) = sig3 (fun d => -(x (ix3 b s d))) j.val := rfl

end Cert.Signature

end
-- ==== Proof.LibOuterProduct.lean ====
/-
  The row-wise outer product `x[:, :, None] * y[:, None, :]` read at an index, and its row-major flattening.

  For `x : [a, b]` and `y : [a, c]` the product array `[a, b, c]` holds `x[i, j] · y[i, k]` at `(i, j, k)`: `x` is
  cast to `[a, b, 1]` and repeated along the last axis, `y` is cast to `[a, 1, c]` and repeated along the middle one,
  and the two are multiplied entry by entry. Flattened to `[a, b·c]` the entry at `(i, q)` is the one at
  `(i, j, k)` for the `j, k` with `q = j·c + k`. Each step is the library's general lemma (a shape cast keeps the
  row-major position; a broadcast reads coordinate zero on a unit axis) with both indices written by coordinates,
  at any extents.
-/
import Idealize.ShloMosaic.Lib.Pipeline.Value
import Idealize.ShloMosaic.Lib.ValueIdx
import Idealize.ShloMosaic.PureOps.Ideal

namespace Cert.OuterProduct

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, c]` array cast to `[a, 1, c]` reads, at `(i, u, k)`, the operand at `(i, k)`. -/
theorem shapeCast_ac_a1c_apply {a c : ℕ} (y : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ y h (ix3 i u k) = y (ix2 i k) :=
  shapeCast_apply y h _ _ (by
    have hu : u.val = 0 := by omega
    rw [Shape.rowMajor_val_two, Shape.rowMajor_val_three]
    show i.val * c + k.val = (i.val * 1 + u.val) * c + k.val
    rw [hu, Nat.mul_one, Nat.add_zero])

/-- An `[a, b, 1]` array repeated along its last axis to `[a, b, c]` reads, at `(i, j, k)`, its one value for
    `(i, j)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array repeated along its middle axis to `[a, b, c]` reads, at `(i, j, k)`, its one value for
    `(i, k)`. -/
theorem broadcastTo_a1c_abc_apply {a b c : ℕ} (y : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ y h (ix3 i j k) = y (ix3 i (0 : Fin 1) k) := by
  refine broadcastTo_apply y h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An `[a, b, c]` array flattened to `[a, n]`, `n = b·c`, reads, at `(i, q)`, the operand at `(i, j, k)` for the
    `j, k` with `q = j·c + k`. -/
theorem shapeCast_abc_an_apply {a b c n : ℕ} (z : (⟨3, ![a, b, c]⟩ : Shape).Idx → α)
    (h : (⟨3, ![a, b, c]⟩ : Shape).ShapeCasts ⟨2, ![a, n]⟩) (hn : n = b * c)
    (i : Fin a) (q : Fin n) (j : Fin b) (k : Fin c) (hq : q.val = j.val * c + k.val) :
    shapeCast ⟨2, ![a, n]⟩ z h (ix2 i q) = z (ix3 i j k) :=
  shapeCast_apply z h _ _ (by
    rw [Shape.rowMajor_val_three, Shape.rowMajor_val_two]
    show (i.val * b + j.val) * c + k.val = i.val * n + q.val
    rw [hq, hn, Nat.add_mul, Nat.mul_assoc, Nat.add_assoc])

/-- The outer product at `(i, j, k)`, on the extended reals: `x[i, j] · y[i, k]`. -/
theorem outer_apply {a b c : ℕ} {φ : FTy} (x : FVec Ideal ⟨2, ![a, b]⟩ φ) (y : FVec Ideal ⟨2, ![a, c]⟩ φ)
    (hx : (⟨2, ![a, b]⟩ : Shape).ShapeCasts ⟨3, ![a, b, 1]⟩) (hxb : (⟨3, ![a, b, 1]⟩ : Shape).Broadcasts ⟨3, ![a, b, c]⟩)
    (hy : (⟨2, ![a, c]⟩ : Shape).ShapeCasts ⟨3, ![a, 1, c]⟩) (hyb : (⟨3, ![a, 1, c]⟩ : Shape).Broadcasts ⟨3, ![a, b, c]⟩)
    (i : Fin a) (j : Fin b) (k : Fin c) :
    mulf (broadcastTo ⟨3, ![a, b, c]⟩ (shapeCast ⟨3, ![a, b, 1]⟩ x hx) hxb)
        (broadcastTo ⟨3, ![a, b, c]⟩ (shapeCast ⟨3, ![a, 1, c]⟩ y hy) hyb) (ix3 i j k)
      = x (ix2 i j) * y (ix2 i k) := by
  rw [mulf_apply, broadcastTo_ab1_abc_apply, shapeCast_ab_ab1_apply, broadcastTo_a1c_abc_apply,
    shapeCast_ac_a1c_apply]

/-- The outer product flattened to `[a, b·c]`, at `(i, q)` with `q = j·c + k`: `x[i, j] · y[i, k]`. -/
theorem outer_flat_apply {a b c n : ℕ} {φ : FTy} (x : FVec Ideal ⟨2, ![a, b]⟩ φ) (y : FVec Ideal ⟨2, ![a, c]⟩ φ)
    (hx : (⟨2, ![a, b]⟩ : Shape).ShapeCasts ⟨3, ![a, b, 1]⟩) (hxb : (⟨3, ![a, b, 1]⟩ : Shape).Broadcasts ⟨3, ![a, b, c]⟩)
    (hy : (⟨2, ![a, c]⟩ : Shape).ShapeCasts ⟨3, ![a, 1, c]⟩) (hyb : (⟨3, ![a, 1, c]⟩ : Shape).Broadcasts ⟨3, ![a, b, c]⟩)
    (hf : (⟨3, ![a, b, c]⟩ : Shape).ShapeCasts ⟨2, ![a, n]⟩) (hn : n = b * c)
    (i : Fin a) (q : Fin n) (j : Fin b) (k : Fin c) (hq : q.val = j.val * c + k.val) :
    shapeCast ⟨2, ![a, n]⟩
        (mulf (broadcastTo ⟨3, ![a, b, c]⟩ (shapeCast ⟨3, ![a, b, 1]⟩ x hx) hxb)
          (broadcastTo ⟨3, ![a, b, c]⟩ (shapeCast ⟨3, ![a, 1, c]⟩ y hy) hyb)) hf (ix2 i q)
      = x (ix2 i j) * y (ix2 i k) := by
  rw [shapeCast_abc_an_apply _ hf hn i q j k hq, outer_apply]

end Cert.OuterProduct
-- ==== Proof.Payloads.lean ====
/-
  What each of the kernel body's ten stores writes, entry by entry.

  The body loads one block `x0 : [1, 8, 64]` (eight rows of the input), negates it (`0 − x0`, which on the
  extended reals is `−x0` for every entry, the infinities included), and fills its `[1, 8, 266304]` output block
  in ten pieces: the negated rows at lane 0, their pairwise products (an outer product of each row with itself,
  flattened) at lane 64, and, at lanes `4160 + c·32768` for `c = 0 … 7`, the outer product of 512 consecutive
  level-two entries (a slice at offset `c·512`) with the row, flattened. Every piece, at `(0, r, p)`, is the feature
  row of the negated row `r` at the piece's lane offset plus `p`: for level three, entry `p` of chunk `c` is
  level-two entry `c·512 + p / 64` times row entry `p mod 64`, and `c·512 + p / 64 = (c·32768 + p) / 64`.
-/
import proofs.«142863_j60258391163408_1_alg».proof.Proof.Gen.KernelIdeal.Skeleton
import proofs.«142863_j60258391163408_1_alg».proof.Proof.Signature
import proofs.«142863_j60258391163408_1_alg».proof.Proof.LibOuterProduct
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx Cert.Signature

/-- Row `r` of the block, negated: the vector whose features the block's row `r` holds. -/
abbrev negRow (x0 : Vec Ideal S1x8x64 .f32) (r : Fin 8) : Fin 64 → EReal := fun d => -(x0 (ix3 (0 : Fin 1) r d))

/-- The negated block at `(r, d)`: zero minus the entry is its negative. -/
theorem neg_apply (x0 : Vec Ideal S1x8x64 .f32) (r : Fin 8) (d : Fin 64) :
    k0_pay3 (F := Ideal) x0 (ix2 r d) = negRow x0 r d := by
  unfold k0_pay3
  rw [subf_apply, broadcast_apply, shapeCast_1ab_ab_apply]
  show Ideal.ofBits .f32 0x00000000#32 - x0 (ix3 (0 : Fin 1) r d) = _
  rw [Ideal.ofBits_zero_f32, zero_sub]

/-- The level-two values at `(r, q)`: entry `q / 64` times entry `q mod 64` of the negated row. -/
theorem square_apply (x0 : Vec Ideal S1x8x64 .f32) (r : Fin 8) (q : Fin 4096) :
    k0_pay5 (F := Ideal) x0 (ix2 r q) = negRow x0 r (lane (q.val / 64)) * negRow x0 r (lane q.val) := by
  unfold k0_pay5
  rw [OuterProduct.outer_flat_apply (k0_pay3 (F := Ideal) x0) (k0_pay3 (F := Ideal) x0) _ _ _ _ _ (by norm_num) r q
    (lane (q.val / 64)) (lane q.val) (by have := q.isLt; show q.val = q.val / 64 % 64 * 64 + q.val % 64; omega),
    neg_apply, neg_apply]

/-- One level-three chunk at `(0, r, p)`: the slice of the level-two values at offset `o = c·512`, outer product
    with the negated rows, flattened — the feature row at position `off + p`, `off = 4160 + c·32768`. -/
theorem chunk_apply (x0 : Vec Ideal S1x8x64 .f32) (o off c : ℕ) (hc : c < 8) (ho : o = c * 512) (hoff : off = 4160 + c * 32768)
    (hs : S8x4096.Slices ![0, o] S8x512) (z : Fin 1) (r : Fin 8) (p : Fin 32768) :
    shapeCast S1x8x32768
        (shapeCast S8x32768
          (mulf (broadcastTo S8x512x64 (shapeCast S8x512x1 (extractStridedSlice S8x512 ![0, o] (k0_pay5 (F := Ideal) x0) hs)
              shapeCasts_S8x512_S8x512x1) broadcasts_S8x512x1_S8x512x64)
            (broadcastTo S8x512x64 (shapeCast S8x1x64 (k0_pay3 (F := Ideal) x0) shapeCasts_S8x64_S8x1x64) broadcasts_S8x1x64_S8x512x64))
          shapeCasts_S8x512x64_S8x32768)
        shapeCasts_S8x32768_S1x8x32768 (ix3 z r p)
      = sig3 (negRow x0 r) (off + p.val) := by
  have hp := p.isLt
  rw [shapeCast_ab_1ab_apply,
    OuterProduct.outer_flat_apply _ (k0_pay3 (F := Ideal) x0) _ _ _ _ _ (by norm_num) r p
      (⟨p.val / 64, by omega⟩ : Fin 512) (lane p.val) (by show p.val = p.val / 64 * 64 + p.val % 64; omega),
    slice2_axis1_apply o _ hs r _ (⟨o + p.val / 64, by omega⟩ : Fin 4096) rfl,
    square_apply, neg_apply, hoff, show 4160 + c * 32768 + p.val = 4160 + (c * 32768 + p.val) by omega, sig3_three]
  show negRow x0 r (lane ((o + p.val / 64) / 64)) * negRow x0 r (lane (o + p.val / 64)) * negRow x0 r (lane p.val) = _
  rw [lane_congr (show (o + p.val / 64) / 64 % 64 = (c * 32768 + p.val) / 4096 % 64 by omega),
    lane_congr (show (o + p.val / 64) % 64 = (c * 32768 + p.val) / 64 % 64 by omega),
    lane_congr (show p.val % 64 = (c * 32768 + p.val) % 64 by omega)]

end Cert.KernelIdeal.Payloads

end
-- ==== Proof.Block.lean ====
/-
  What the kernel body leaves in its output block: the feature array of the block it loaded.

  The body's ten stores are pieces of one function of the block index. The store at lanes `[off, off + n)` writes,
  at `(0, r, p)`, the feature row of the negated row `r` at position `off + p`; under the store's rectangle the block
  index is `(0, r, off + p)`, where the feature array of the loaded block has exactly that value. Since the ten
  rectangles cover the block, the contents the stores leave are the feature array, whatever was there before and
  in whatever order the stores were made.
-/
import proofs.«142863_j60258391163408_1_alg».proof.Proof.FrameKernelIdeal
import proofs.«142863_j60258391163408_1_alg».proof.Proof.Payloads

set_option maxRecDepth 16384

noncomputable section

namespace Cert.KernelIdeal.Block

open Cert.KernelIdeal Cert.KernelIdeal.Gen Cert.KernelIdeal.GenP Cert.KernelIdeal.Payloads
open Idealize.ShloMosaic Idealize.ShloMosaic.TcCoe Idealize.ShloMosaic.Tactic Idealize.ShloMosaic.ValueIdx Cert.Signature
open Idealize.SL Idealize.SL.Sem

/-- A store of all eight rows of lanes `[off, off + n)` whose value at `(0, r, p)` is the feature row of the negated
    row `r` at position `off + p` agrees, under its rectangle, with the feature array of the block. -/
theorem store_eq (x0 : Vec Ideal S1x8x64 .f32) {off n : ℕ}
    {inb : ∀ a, (![0, 0, off] : Fin 3 → ℕ) a + (![1, 8, n] : Fin 3 → ℕ) a ≤ S1x8x266304.size a}
    (w : (Rect.unit (s := S1x8x266304) ![0, 0, off] ![1, 8, n] inb).shape.Idx → EReal)
    (hw : ∀ (z : Fin 1) (r : Fin 8) (p : Fin n), w (ix3 z r p) = sig3 (negRow x0 r) (off + p.val))
    (x : (Rect.unit (s := S1x8x266304) ![0, 0, off] ![1, 8, n] inb).shape.Idx) :
    w x = features x0 ((Rect.unit (s := S1x8x266304) ![0, 0, off] ![1, 8, n] inb).emb x) := by
  obtain ⟨z, r, p, rfl⟩ : ∃ (z : Fin 1) (r : Fin 8) (p : Fin n), x = ix3 z r p := ⟨x 0, x 1, x 2, eq_ix3 x⟩
  rw [hw]
  have hz : z.val = 0 := by omega
  have erow : ∀ d : Fin 64,
      (ix3 ((Rect.unit (s := S1x8x266304) ![0, 0, off] ![1, 8, n] inb).emb (ix3 z r p) 0)
        ((Rect.unit (s := S1x8x266304) ![0, 0, off] ![1, 8, n] inb).emb (ix3 z r p) 1) d : S1x8x64.Idx)
        = ix3 (0 : Fin 1) r d := by
    intro d; funext a; apply Fin.ext
    match a with
    | ⟨0, _⟩ => show 0 + 1 * z.val = 0; omega
    | ⟨1, _⟩ => show 0 + 1 * r.val = r.val; omega
    | ⟨2, _⟩ => rfl
  have elane : ((Rect.unit (s := S1x8x266304) ![0, 0, off] ![1, 8, n] inb).emb (ix3 z r p) 2).val = off + p.val := by
    show off + 1 * p.val = off + p.val; omega
  unfold features
  rw [elane]
  simp only [erow]

/-- The contents the body's stores leave in the output block, from the loaded block `x0`: its feature array. -/
theorem block_eq (c : Dev nD) (i : grid0.Coords) (arg2 : Memref sig .tc .vmem S1x8x64 .f32) (harg2 : arg2.IsWhole)
    (arg3 : Memref sig .tc .vmem S1x8x266304 .f32) (harg3 : arg3.IsWhole) (x0 : Vec Ideal S1x8x64 .f32) :
    out0_A_1 (F := Ideal) c i arg2 harg2 arg3 harg3 x0 = features x0 := by
  have hz : (![0, 0, 0] : Fin 3 → ℕ) = fun _ => 0 := funext fun a => by fin_cases a <;> rfl
  have hload : View.readAt (Elt Ideal) arg2.view
      (Rect.unit ![0, 0, 0] S1x8x64.size inb_S1x8x64_S1x8x64_0_0_0).toLoadRect (harg2.unread x0) = x0 := by
    rw [View.readAt_eq_ld, harg2.read_unread, View.ld_unit_zero (S := S1x8x64) hz]
  unfold out0_A_1
  rw [View.read_writes_eq_canon _ _ _ (cover0_A_1 c i arg2 harg2 arg3 harg3 x0)]
  funext y
  refine View.canon_apply_of_pieces (features x0) _ ?_ y (cover0_A_1 c i arg2 harg2 arg3 harg3 x0 y)
  unfold kernelRun0_A
  dsimp only
  sl_unfold_words
  simp only [hload]
  intro p hp
  simp only [List.mem_cons, List.not_mem_nil, or_false] at hp
  rcases hp with rfl | rfl | rfl | rfl | rfl | rfl | rfl | rfl | rfl | rfl
  · exact store_eq (inb := inb_S1x8x266304_S1x8x32768_0_0_233536) x0 _ (fun z r p => by
      unfold k0_pay2
      exact chunk_apply x0 3584 233536 7 (by norm_num) (by norm_num) (by norm_num) _ z r p)
  · exact store_eq (inb := inb_S1x8x266304_S1x8x32768_0_0_200768) x0 _ (fun z r p => by
      unfold k0_pay1 k0_pay14
      exact chunk_apply x0 3072 200768 6 (by norm_num) (by norm_num) (by norm_num) _ z r p)
  · exact store_eq (inb := inb_S1x8x266304_S1x8x32768_0_0_168000) x0 _ (fun z r p => by
      unfold k0_pay13
      exact chunk_apply x0 2560 168000 5 (by norm_num) (by norm_num) (by norm_num) _ z r p)
  · exact store_eq (inb := inb_S1x8x266304_S1x8x32768_0_0_135232) x0 _ (fun z r p => by
      unfold k0_pay12
      exact chunk_apply x0 2048 135232 4 (by norm_num) (by norm_num) (by norm_num) _ z r p)
  · exact store_eq (inb := inb_S1x8x266304_S1x8x32768_0_0_102464) x0 _ (fun z r p => by
      unfold k0_pay11
      exact chunk_apply x0 1536 102464 3 (by norm_num) (by norm_num) (by norm_num) _ z r p)
  · exact store_eq (inb := inb_S1x8x266304_S1x8x32768_0_0_69696) x0 _ (fun z r p => by
      unfold k0_pay10 k0_pay9
      exact chunk_apply x0 1024 69696 2 (by norm_num) (by norm_num) (by norm_num) _ z r p)
  · exact store_eq (inb := inb_S1x8x266304_S1x8x32768_0_0_36928) x0 _ (fun z r p => by
      unfold k0_pay8
      exact chunk_apply x0 512 36928 1 (by norm_num) (by norm_num) (by norm_num) _ z r p)
  · exact store_eq (inb := inb_S1x8x266304_S1x8x32768_0_0_4160) x0 _ (fun z r p => by
      unfold k0_pay7
      exact chunk_apply x0 0 4160 0 (by norm_num) (by norm_num) (by norm_num) _ z r p)
  · exact store_eq (inb := inb_S1x8x266304_S1x8x4096_0_0_64) x0 _ (fun z r q => by
      show shapeCast S1x8x4096 (k0_pay5 (F := Ideal) x0) shapeCasts_S8x4096_S1x8x4096 (ix3 z r q) = _
      rw [shapeCast_ab_1ab_apply, square_apply, sig3_two _ _ q.isLt])
  · exact store_eq (inb := inb_S1x8x266304_S1x8x64_0_0_0) x0 _ (fun z r d => by
      have hd := d.isLt
      show shapeCast S1x8x64 (k0_pay3 (F := Ideal) x0) shapeCasts_S8x64_S1x8x64 (ix3 z r d) = _
      rw [shapeCast_ab_1ab_apply, neg_apply, Nat.zero_add, sig3_one _ _ hd]
      exact congrArg (negRow x0 r) (eq_lane (by show d.val = d.val % 64; omega)))

end Cert.KernelIdeal.Block

end
-- ==== Proof.KernelValue.lean ====
/-
  The kernel's result array is the feature array of its argument.

  The grid has 8 × 4 points; point `t` stages rows `8·t₁ … 8·t₁ + 7` of batch `t₀` of the input (a `[1, 8, 64]` block)
  and writes back the `[1, 8, 266304]` block of the same rows of the output, whose contents are the feature array of
  the staged block. Row `(b, s)` of the feature array depends on row `(b, s)` of the input only, so the block written
  at `t` is block `t` of the feature array of the whole input: the input window and the output window have the same
  block indices on the two leading axes and index 0 on the last. The 32 blocks tile the output (the block holding
  `(b, s, ·)` is the one at `(b, s / 8)`), so after the run the whole array is the feature array.
-/
import proofs.«142863_j60258391163408_1_alg».proof.Proof.ValueKernelIdeal
import proofs.«142863_j60258391163408_1_alg».proof.Proof.Block

set_option maxRecDepth 16384

noncomputable section

namespace Cert.KernelIdeal.KernelValue

open Cert.KernelIdeal Cert.KernelIdeal.Gen Cert.KernelIdeal.GenP Cert.KernelIdeal.ValueP
open Idealize.ShloMosaic Idealize.ShloMosaic.TcCoe Idealize.SL.Sem Idealize.ShloMosaic.ValueIdx Cert.Signature
open Idealize.ShloMosaic.Pipeline (Dat)

variable (m : (ℓ : Loc nD τ sig) → Buf (Elt Ideal) ℓ) (ρ : Dev nD → PrngReg)

/-- The feature array of a block of rows, at an index of the block, is the feature array of the whole input at the
    corresponding index, when the block's row is that row of the input and the lane is the same. -/
theorem features_rows (X : S8x32x64.Idx → EReal) (x0 : S1x8x64.Idx → EReal) (y : S1x8x266304.Idx) (i : S8x32x266304.Idx)
    (hrow : ∀ d : Fin 64, x0 (ix3 (y 0) (y 1) d) = X (ix3 (i 0) (i 1) d)) (hlane : (y 2).val = (i 2).val) :
    features x0 y = features X i := by
  unfold features
  rw [hlane]
  congr 1
  funext d
  rw [hrow]

/-- The printed index maps, decided over the 32 grid points: the input's and the output's windows move together on
    the two leading axes and stay at block 0 on the last. -/
theorem idx_facts : ∀ t : Fin cfg0.N,
    win0_0.index t (0 : Fin 3) = win0_1.index t (0 : Fin 3)
    ∧ win0_0.index t (1 : Fin 3) = win0_1.index t (1 : Fin 3)
    ∧ win0_0.index t (2 : Fin 3) = 0 ∧ win0_1.index t (2 : Fin 3) = 0 :=
  (by decide +kernel : ∀ t : Fin grid0.N, _)

/-- Every block of the output is some point's. -/
theorem idx_onto : ∀ (q0 : Fin 8) (q1 : Fin 4), ∃ t : Fin cfg0.N, win0_1.index t = ![q0.val, q1.val, 0] :=
  (by decide +kernel : ∀ (q0 : Fin 8) (q1 : Fin 4), ∃ t : Fin grid0.N, win0_1.index t = ![q0.val, q1.val, 0])

/-- What point `t` writes back is block `t` of the feature array of the input as launched. -/
theorem flushed_eq (c : Dev nD) (t : Fin cfg0.N) :
    (dats m 0 c).flushed 1 t
      = ((cfg0.win 1).blk t).view.read (Elt Ideal) (features (n0 := 8) (n1 := 32) (V m c main_arg0)) := by
  rw [flushed1_A, Block.block_eq]
  obtain ⟨e0, e1, e2, e3⟩ := idx_facts t
  funext y
  show features (iblk m c 0 t) y = features (n0 := 8) (n1 := 32) (V m c main_arg0) (((cfg0.win 1).blk t).view.emb y)
  refine features_rows _ _ _ _ (fun d => ?_) ?_
  · show V m c main_arg0 (((cfg0.win 0).blk t).view.emb (ix3 (y 0) (y 1) d)) = _
    refine congrArg (V m c main_arg0) (funext fun a => Fin.ext ?_)
    match a with
    | ⟨0, _⟩ => show win0_0.index t (0 : Fin 3) * 1 + 1 * (y 0).val = win0_1.index t (0 : Fin 3) * 1 + 1 * (y 0).val; omega
    | ⟨1, _⟩ => show win0_0.index t (1 : Fin 3) * 8 + 1 * (y 1).val = win0_1.index t (1 : Fin 3) * 8 + 1 * (y 1).val; omega
    | ⟨2, _⟩ => show win0_0.index t (2 : Fin 3) * 64 + 1 * d.val = d.val; omega
  · show (y 2).val = win0_1.index t (2 : Fin 3) * 266304 + 1 * (y 2).val; omega

/-- An index of the output is in point `t`'s block iff each coordinate is in the block's range on its axis. -/
theorem mem_blk (t : Fin cfg0.N) (i : S8x32x266304.Idx) :
    i ∈ ((cfg0.win 1).blk t).view.set ↔ ∀ a : Fin 3, win0_1.index t a * S1x8x266304.size a ≤ (i a).val
      ∧ (i a).val < win0_1.index t a * S1x8x266304.size a + S1x8x266304.size a := by
  show i ∈ ((View.whole main_v0).slice (win0_1.rect t)).set ↔ _
  rw [View.set_slice_whole, Rect.mem_set_unit]
  exact Iff.rfl

/-- Every index of the output lies in the block of the point at `(b, s / 8)`. -/
theorem cover (i : S8x32x266304.Idx) :
    ∃ t : Fin cfg0.N, (cfg0.win 1).flush t = true ∧ i ∈ ((cfg0.win 1).blk t).view.set := by
  have h0 : (i 0).val < 8 := (i 0).isLt
  have h1 : (i 1).val < 32 := (i 1).isLt
  have h2 : (i 2).val < 266304 := (i 2).isLt
  obtain ⟨t, ht⟩ := idx_onto ⟨(i 0).val, h0⟩ ⟨(i 1).val / 8, by omega⟩
  have q0 : win0_1.index t (0 : Fin 3) = (i 0).val := congrFun ht 0
  have q1 : win0_1.index t (1 : Fin 3) = (i 1).val / 8 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 8 ≤ (i 1).val ∧ (i 1).val < win0_1.index t (1 : Fin 3) * 8 + 8; omega
  | ⟨2, _⟩ =>
    show win0_1.index t (2 : Fin 3) * 266304 ≤ (i 2).val ∧ (i 2).val < win0_1.index t (2 : Fin 3) * 266304 + 266304; omega

/-- The output array after the run is the feature array of the input as launched. -/
theorem final (c : Dev nD) :
    (dats m 0 c).arrAt 1 cfg0.N = features (n0 := 8) (n1 := 32) (m ((c : Thread nD τ).loc main_arg0)) :=
  (dats m 0 c).arrAt_eq_of_cover 1 (features (n0 := 8) (n1 := 32) (V m c main_arg0)) (fun t _ => flushed_eq m c t) cover

/-- The run: the result array ends at the feature array of the argument, the argument unchanged. -/
theorem run : θ_run defs (onTc (τ := τ) (main (F := Ideal))) ⟨m, fun _ => 0, ρ⟩ fun r => ∀ c : Dev nD,
      r.2.mem ((c : Thread nD τ).loc main_v0) = features (n0 := 8) (n1 := 32) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.KernelValue

end
-- ==== Proof.LibConcatThree.lean ====
/-
  Three arrays joined along the last of three axes, read at an index.

  `[n0, n1, a]`, `[n0, n1, b]` and `[n0, n1, c]` concatenated along axis 2 give `[n0, n1, N]`; the entry at
  `(i0, i1, j)` comes from the first piece when `j < a` (at `j`), from the second when `a ≤ j < a + b` (at `j − a`),
  from the third otherwise (at `j − a − b`). Each statement takes the piece's own coordinate `k` and the equation
  that places it, so that it applies by unification to indices written by coordinates; all three are the library's
  lemma for a concatenation read at an index, with the extents before the piece summed.
-/
import Idealize.ShloMosaic.Lib.Pipeline.Value
import Idealize.ShloMosaic.Lib.ValueIdx

namespace Cert.ConcatThree

open Idealize.ShloMosaic Idealize.ShloMosaic.ValueIdx

variable {α : Type} {n0 n1 a b c N : ℕ}

/-- The first piece: position `j` of the joined axis, below the first extent, reads the first array at `j`. -/
theorem apply_fst (u0 : (⟨3, ![n0, n1, a]⟩ : Shape).Idx → α) (u1 : (⟨3, ![n0, n1, b]⟩ : Shape).Idx → α)
    (u2 : (⟨3, ![n0, n1, c]⟩ : Shape).Idx → α)
    (h : Shape.Concatenates [(⟨3, ![n0, n1, a]⟩ : Shape), ⟨3, ![n0, n1, b]⟩, ⟨3, ![n0, n1, c]⟩] ⟨3, ![n0, n1, N]⟩ 2)
    (i0 : Fin n0) (i1 : Fin n1) (j : Fin N) (k : Fin a) (hk : k.val = j.val) :
    concatenate ⟨3, ![n0, n1, N]⟩ 2 [⟨⟨3, ![n0, n1, a]⟩, u0⟩, ⟨⟨3, ![n0, n1, b]⟩, u1⟩, ⟨⟨3, ![n0, n1, c]⟩, u2⟩] h (ix3 i0 i1 j)
      = u0 (ix3 i0 i1 k) :=
  concatenate_apply_piece (t := ⟨3, ![n0, n1, N]⟩) 2 [⟨⟨3, ![n0, n1, a]⟩, u0⟩, ⟨⟨3, ![n0, n1, b]⟩, u1⟩, ⟨⟨3, ![n0, n1, c]⟩, u2⟩] h (ix3 i0 i1 j) 0 (by simp) _ u0 rfl rfl 0 rfl (ix3 i0 i1 k)
    (fun ax hax => match ax with
      | ⟨0, _⟩ => rfl
      | ⟨1, _⟩ => rfl
      | ⟨2, _⟩ => absurd rfl hax)
    (by show 0 + k.val = j.val; omega)

/-- The second piece: position `j = a + k` reads the second array at `k`. -/
theorem apply_snd (u0 : (⟨3, ![n0, n1, a]⟩ : Shape).Idx → α) (u1 : (⟨3, ![n0, n1, b]⟩ : Shape).Idx → α)
    (u2 : (⟨3, ![n0, n1, c]⟩ : Shape).Idx → α)
    (h : Shape.Concatenates [(⟨3, ![n0, n1, a]⟩ : Shape), ⟨3, ![n0, n1, b]⟩, ⟨3, ![n0, n1, c]⟩] ⟨3, ![n0, n1, N]⟩ 2)
    (i0 : Fin n0) (i1 : Fin n1) (j : Fin N) (k : Fin b) (hk : a + k.val = j.val) :
    concatenate ⟨3, ![n0, n1, N]⟩ 2 [⟨⟨3, ![n0, n1, a]⟩, u0⟩, ⟨⟨3, ![n0, n1, b]⟩, u1⟩, ⟨⟨3, ![n0, n1, c]⟩, u2⟩] h (ix3 i0 i1 j)
      = u1 (ix3 i0 i1 k) :=
  concatenate_apply_piece (t := ⟨3, ![n0, n1, N]⟩) 2 [⟨⟨3, ![n0, n1, a]⟩, u0⟩, ⟨⟨3, ![n0, n1, b]⟩, u1⟩, ⟨⟨3, ![n0, n1, c]⟩, u2⟩] h (ix3 i0 i1 j) 1 (by simp) _ u1 rfl rfl a (by simp) (ix3 i0 i1 k)
    (fun ax hax => match ax with
      | ⟨0, _⟩ => rfl
      | ⟨1, _⟩ => rfl
      | ⟨2, _⟩ => absurd rfl hax)
    hk

/-- The third piece: position `j = a + b + k` reads the third array at `k`. -/
theorem apply_thd (u0 : (⟨3, ![n0, n1, a]⟩ : Shape).Idx → α) (u1 : (⟨3, ![n0, n1, b]⟩ : Shape).Idx → α)
    (u2 : (⟨3, ![n0, n1, c]⟩ : Shape).Idx → α)
    (h : Shape.Concatenates [(⟨3, ![n0, n1, a]⟩ : Shape), ⟨3, ![n0, n1, b]⟩, ⟨3, ![n0, n1, c]⟩] ⟨3, ![n0, n1, N]⟩ 2)
    (i0 : Fin n0) (i1 : Fin n1) (j : Fin N) (k : Fin c) (hk : a + b + k.val = j.val) :
    concatenate ⟨3, ![n0, n1, N]⟩ 2 [⟨⟨3, ![n0, n1, a]⟩, u0⟩, ⟨⟨3, ![n0, n1, b]⟩, u1⟩, ⟨⟨3, ![n0, n1, c]⟩, u2⟩] h (ix3 i0 i1 j)
      = u2 (ix3 i0 i1 k) :=
  concatenate_apply_piece (t := ⟨3, ![n0, n1, N]⟩) 2 [⟨⟨3, ![n0, n1, a]⟩, u0⟩, ⟨⟨3, ![n0, n1, b]⟩, u1⟩, ⟨⟨3, ![n0, n1, c]⟩, u2⟩] h (ix3 i0 i1 j) 2 (by simp) _ u2 rfl rfl (a + b) (by simp) (ix3 i0 i1 k)
    (fun ax hax => match ax with
      | ⟨0, _⟩ => rfl
      | ⟨1, _⟩ => rfl
      | ⟨2, _⟩ => absurd rfl hax)
    hk

end Cert.ConcatThree
-- ==== Proof.RefValue.lean ====
/-
  The reference's result is the feature array.

  The reference negates the input, forms the outer product of each row with itself (two unit-axis broadcasts and a
  product) and flattens it to 4096 entries, forms the outer product of that with the row again and flattens it to
  262144 entries, and joins the three along the last axis. Read at `(b, s, j)`: below 64 the joined array is the
  negated row at `j`; from 64 it is the level-two array at `q = j − 64`, which is the negated row at `q / 64` times
  the negated row at `q mod 64`; from 4160 it is the level-three array at `p = j − 4160`, which is the level-two
  entry `p / 64` times the negated row at `p mod 64`. That is the feature row of the negated row, position by position.
-/
import proofs.«142863_j60258391163408_1_alg».proof.Proof.Gen.ReferenceIdeal.Read
import proofs.«142863_j60258391163408_1_alg».proof.Proof.Signature
import proofs.«142863_j60258391163408_1_alg».proof.Proof.LibConcatThree

noncomputable section

namespace Cert.ReferenceIdeal.RefValue

open Cert.ReferenceIdeal Cert.ReferenceIdeal.Read Idealize.ShloMosaic Idealize.ShloMosaic.ValueIdx Cert.Signature

/-- Row `(b, s)` of the input, negated. -/
abbrev negRow (x : S8x32x64.Idx → EReal) (b : Fin 8) (s : Fin 32) : Fin 64 → EReal := fun d => -(x (ix3 b s d))

/-- The negated input at `(b, s, d)`. -/
theorem neg_apply (x : S8x32x64.Idx → EReal) (b : Fin 8) (s : Fin 32) (d : Fin 64) :
    val_main_v0 (F := Ideal) x (ix3 b s d) = negRow x b s d := rfl

/-- Through the flattening and the two broadcasts, the left factor of level two at `(b, s, q)` is read at
    `(b, s, q / 64)`. -/
theorem idx_square_left (b : Fin 8) (s : Fin 32) (q : Fin 4096) :
    idx_main_v1 (idx_main_v3 (idx_main_v6 (ix3 b s q))) = ix3 b s (lane (q.val / 64)) := by
  have hb := b.isLt; have hs := s.isLt; have hq := q.isLt
  funext a; apply Fin.ext
  match a with
  | ⟨0, _⟩ => show ((b.val * 32 + s.val) * 4096 + q.val) / 131072 = b.val; omega
  | ⟨1, _⟩ => show ((b.val * 32 + s.val) * 4096 + q.val) / 4096 % 32 = s.val; omega
  | ⟨2, _⟩ => show ((b.val * 32 + s.val) * 4096 + q.val) / 64 % 64 = q.val / 64 % 64; omega

/-- … and the right factor at `(b, s, q mod 64)`. -/
theorem idx_square_right (b : Fin 8) (s : Fin 32) (q : Fin 4096) :
    idx_main_v2 (idx_main_v4 (idx_main_v6 (ix3 b s q))) = ix3 b s (lane q.val) := by
  have hb := b.isLt; have hs := s.isLt; have hq := q.isLt
  funext a; apply Fin.ext
  match a with
  | ⟨0, _⟩ => show ((b.val * 32 + s.val) * 4096 + q.val) / 131072 = b.val; omega
  | ⟨1, _⟩ => show ((b.val * 32 + s.val) * 4096 + q.val) / 4096 % 32 = s.val; omega
  | ⟨2, _⟩ => show ((b.val * 32 + s.val) * 4096 + q.val) % 64 = q.val % 64; omega

/-- Level two of the reference at `(b, s, q)`. -/
theorem square_apply (x : S8x32x64.Idx → EReal) (b : Fin 8) (s : Fin 32) (q : Fin 4096) :
    val_main_v6 (F := Ideal) x (ix3 b s q) = negRow x b s (lane (q.val / 64)) * negRow x b s (lane q.val) := by
  rw [val_main_v6_apply, val_main_v5_apply, val_main_v3_apply, val_main_v1_apply, val_main_v4_apply, val_main_v2_apply,
    idx_square_left, idx_square_right, neg_apply, neg_apply]
  rfl

/-- The left factor of level three at `(b, s, p)` is level two read at `(b, s, p / 64)`. -/
theorem idx_cube_left (b : Fin 8) (s : Fin 32) (p : Fin 262144) :
    idx_main_v7 (idx_main_v9 (idx_main_v12 (ix3 b s p)))
      = ix3 b s (⟨p.val / 64, by have := p.isLt; omega⟩ : Fin 4096) := by
  have hb := b.isLt; have hs := s.isLt; have hp := p.isLt
  funext a; apply Fin.ext
  match a with
  | ⟨0, _⟩ => show ((b.val * 32 + s.val) * 262144 + p.val) / 8388608 = b.val; omega
  | ⟨1, _⟩ => show ((b.val * 32 + s.val) * 262144 + p.val) / 262144 % 32 = s.val; omega
  | ⟨2, _⟩ => show ((b.val * 32 + s.val) * 262144 + p.val) / 64 % 4096 = p.val / 64; omega

/-- … and the right factor is the negated row at `(b, s, p mod 64)`. -/
theorem idx_cube_right (b : Fin 8) (s : Fin 32) (p : Fin 262144) :
    idx_main_v8 (idx_main_v10 (idx_main_v12 (ix3 b s p))) = ix3 b s (lane p.val) := by
  have hb := b.isLt; have hs := s.isLt; have hp := p.isLt
  funext a; apply Fin.ext
  match a with
  | ⟨0, _⟩ => show ((b.val * 32 + s.val) * 262144 + p.val) / 8388608 = b.val; omega
  | ⟨1, _⟩ => show ((b.val * 32 + s.val) * 262144 + p.val) / 262144 % 32 = s.val; omega
  | ⟨2, _⟩ => show ((b.val * 32 + s.val) * 262144 + p.val) % 64 = p.val % 64; omega

/-- Level three of the reference at `(b, s, p)`. -/
theorem cube_apply (x : S8x32x64.Idx → EReal) (b : Fin 8) (s : Fin 32) (p : Fin 262144) :
    val_main_v12 (F := Ideal) x (ix3 b s p)
      = negRow x b s (lane (p.val / 64 / 64)) * negRow x b s (lane (p.val / 64)) * negRow x b s (lane p.val) := by
  rw [val_main_v12_apply, val_main_v11_apply, val_main_v9_apply, val_main_v7_apply, val_main_v10_apply, val_main_v8_apply,
    idx_cube_left, idx_cube_right, square_apply, neg_apply]
  rfl

/-- The reference's result array is the feature array of its argument. -/
theorem result_eq (x : S8x32x64.Idx → EReal) : val_main_v13 (F := Ideal) x = features x := by
  funext i
  obtain ⟨b, s, j, rfl⟩ : ∃ (b : Fin 8) (s : Fin 32) (j : Fin 266304), i = ix3 b s j := ⟨i 0, i 1, i 2, eq_ix3 i⟩
  rw [features_ix3]
  unfold val_main_v13
  have hj := j.isLt
  by_cases h1 : j.val < 64
  · rw [ConcatThree.apply_fst _ _ _ _ b s j (⟨j.val, h1⟩ : Fin 64) rfl, neg_apply, sig3_one _ _ h1]
    exact congrArg (negRow x b s) (eq_lane (by show j.val = j.val % 64; omega))
  · by_cases h2 : j.val < 4160
    · rw [ConcatThree.apply_snd _ _ _ _ b s j (⟨j.val - 64, by omega⟩ : Fin 4096) (by show 64 + (j.val - 64) = j.val; omega),
        square_apply, sig3_two_of_le _ _ (by omega) h2]
    · rw [ConcatThree.apply_thd _ _ _ _ b s j (⟨j.val - 4160, by omega⟩ : Fin 262144)
          (by show 64 + 4096 + (j.val - 4160) = j.val; omega),
        cube_apply, sig3_three_of_le _ _ (by omega)]
      show negRow x b s (lane ((j.val - 4160) / 64 / 64)) * negRow x b s (lane ((j.val - 4160) / 64))
          * negRow x b s (lane (j.val - 4160)) = _
      rw [lane_congr (show (j.val - 4160) / 64 / 64 % 64 = (j.val - 4160) / 4096 % 64 by omega)]

end Cert.ReferenceIdeal.RefValue

end
-- ==== Proof.lean ====
/-
  The certificate of the signature-feature kernel: `Cert.Claim`.

  For `x : [8, 32, 64]` both programs return `[8, 32, 266304]`: row `(b, s)` holds the features of `v = −x[b, s, ·]`
  through level three — `v` itself (64 entries), the products `v i · v j` (64² entries, row-major), and the products
  `(v i · v j) · v l` (64³ entries, row-major). The kernel computes eight rows per grid point, the level-three part in
  eight chunks of 512 level-two entries; the reference computes the levels for the whole array by broadcasting and
  reshaping and joins them. At the ideal instance both are the same function of `x`, `Cert.Signature.features`
  (Proof/Signature.lean): the kernel's negation `0 − x` is `−x` on every extended real, both sides group each triple
  product the same way, and the rest is the arithmetic of positions (a chunk's entry `p` sits at level-three offset
  `c·32768 + p`, whose quotient by 64 is the level-two entry `c·512 + p / 64` the chunk reads). No entry needs to be
  finite, so the precondition is not used beyond being carried.
  The reference's value is read off its generated run (Proof/RefValue.lean), the kernel's off its frame run: the
  body's ten stores leave the feature array of the loaded block (Proof/Payloads.lean, Proof/Block.lean), and the 32
  blocks tile the result (Proof/KernelValue.lean). The idealization rewrote nothing, so `preserves` is `True`.
-/
import proofs.«142863_j60258391163408_1_alg».proof.Defs
import proofs.«142863_j60258391163408_1_alg».proof.Proof.Gen.Kernel
import proofs.«142863_j60258391163408_1_alg».proof.Proof.Gen.KernelIdeal
import proofs.«142863_j60258391163408_1_alg».proof.Proof.Gen.ReferenceIdeal
import proofs.«142863_j60258391163408_1_alg».proof.Proof.Gen.Pre_finite_inputs
import proofs.«142863_j60258391163408_1_alg».proof.Proof.FrameKernel
import proofs.«142863_j60258391163408_1_alg».proof.Proof.KernelValue
import proofs.«142863_j60258391163408_1_alg».proof.Proof.RefValue
import Idealize.ShloMosaic.Adequacy
import Idealize.ShloMosaic.Init

noncomputable section

namespace Cert.Proof

open Idealize.ShloMosaic Idealize.SL.Sem Cert.Signature

/-- The kernel as printed runs to the end with its argument unchanged. -/
theorem frame_kernel [Cert.Kernel.Facts] [Cert.Pre_finite_inputs.Facts] : Cert.frame_Kernel :=
  fun m ρ _ => Cert.Kernel.GenP.frame m ρ

/-- So does its idealization. -/
theorem frame_kernelIdeal [Cert.KernelIdeal.Facts] [Cert.Pre_finite_inputs.Facts] : Cert.frame_KernelIdeal :=
  fun m ρ _ => Cert.KernelIdeal.GenP.frame m ρ

/-- The reference is a straight line of host operations: its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From arguments that agree, both programs end with the feature array of the argument. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => features (n0 := 8) (n1 := 32)
      (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact (Cert.ReferenceIdeal.Read.val_main_v13_eq _).trans (Cert.ReferenceIdeal.RefValue.result_eq _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
